-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S100000x256 .f32) (main_arg1 : IVec S2x1600000 32) (main_arg2 : FVec F S256x64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  main_v8
-- ==== Kernel.lean ====
abbrev S100000x256 : Shape := ⟨2, ![100000, 256]⟩
abbrev S2x1600000 : Shape := ⟨2, ![2, 1600000]⟩
abbrev S256x64 : Shape := ⟨2, ![256, 64]⟩
abbrev S100000x64 : Shape := ⟨2, ![100000, 64]⟩
abbrev S10000x256 : Shape := ⟨2, ![10000, 256]⟩
abbrev S10000x64 : Shape := ⟨2, ![10000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 22
  | .vmem => 9
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S100000x64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S100000x64, .f32⟩
  | .local _ .vmem, ⟨0, _⟩ => ⟨S10000x256, .f32⟩
  | .local _ .vmem, ⟨1, _⟩ => ⟨S10000x256, .f32⟩
  | .local _ .vmem, ⟨2, _⟩ => ⟨S256x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S10000x64_S10000x64 : S10000x64.ShapeCasts S10000x64
  dot_S10000x256_S256x64_S10000x64_1_0_0_1_n_n_wf : DotDims.WF S10000x256 S256x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)

variable [Facts₀]

def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 29
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S100000x64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S100000x64, .f32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.Spec.lean ====
/-
  The mathematics shared by the two programs, stated without either of them.

  Both compute sigmoid (A · (X · W)): the node features X [100000, 256] are projected by the weights W [256, 64], the
  projected rows are summed over each node's incoming edges (the adjacency A given as an edge list), and the logistic
  function is applied entry by entry. On the extended reals a change of float format is the identity, so the kernel's
  narrowing of both matmul operands does not change the product; the product computed tile by tile (10000 rows at a
  time) is the tile of the whole product; and the logistic function is, by its definition there, 1 / (1 + exp (-x)).
-/
import Idealize.ShloMosaic.PureOps.Ideal.Laws
import Idealize.ShloMosaic.Lib.ValueIdx
import Idealize.ShloMosaic.Lib.IdealHost
import proofs.«142743_j59081570123779_1_alg».proof.Proof.LibPlainDot

noncomputable section

open scoped BigOperators

namespace Cert.Spec

open Idealize.ShloMosaic Idealize.ShloMosaic.ValueIdx

/-- The projection of every node's features: the whole product X · W. -/
abbrev proj (a0 : FVec Ideal ⟨2, ![100000, 256]⟩ .f32) (a2 : FVec Ideal ⟨2, ![256, 64]⟩ .f32) :
    FVec Ideal ⟨2, ![100000, 64]⟩ .f32 :=
  Host.dotGeneral (F := Ideal) (DotDims.plain 100000 256 64) none a0 a2

/-- Entry (r, q) of the projection is the sum over k of X[r,k] · W[k,q]. -/
theorem proj_apply (a0 : FVec Ideal ⟨2, ![100000, 256]⟩ .f32) (a2 : FVec Ideal ⟨2, ![256, 64]⟩ .f32)
    (r : Fin 100000) (q : Fin 64) :
    proj a0 a2 (ix2 r q) = ∑ k : Fin 256, a0 (ix2 r k) * a2 (ix2 k q) :=
  Cert.PlainDot.dotGeneral_apply none .single a0 a2 r q

/-- One tile of 10000 rows: the product of the narrowed tile with the narrowed weights, accumulated from zero, holds
    at (p, q) the sum over k of x[p,k] · w[k,q] — narrowing is the identity on the extended reals. -/
theorem tile_apply (x0 : FVec Ideal ⟨2, ![10000, 256]⟩ .f32) (x1 : FVec Ideal ⟨2, ![256, 64]⟩ .f32)
    (h : FTy.bits .bf16 < FTy.bits .f32) (p : Fin 10000) (q : Fin 64) :
    matmul (F := Ideal) (DotDims.plain 10000 256 64) none (truncf .bf16 x0 h) (truncf .bf16 x1 h)
        (constant ⟨2, ![10000, 64]⟩ .f32 0x00000000#32) (ix2 p q)
      = ∑ k : Fin 256, x0 (ix2 p k) * x1 (ix2 k q) :=
  Cert.PlainDot.matmul_zero_apply none (truncf .bf16 x0 h) (truncf .bf16 x1 h) p q

/-- The logistic function applied entry by entry is 1 / (1 + exp (-x)) entry by entry, the ones being the
    broadcast float one. -/
theorem sigmoid_eq {S : Shape} (X : FVec Ideal S .f32) (h : (⟨0, ![]⟩ : Shape).BroadcastsInDim S (![] : Fin 0 → Fin S.rank)) :
    Host.divf (broadcastInDim S ![] h (constant (F := Ideal) ⟨0, ![]⟩ .f32 0x3F800000#32))
        (addf (broadcastInDim S ![] h (constant (F := Ideal) ⟨0, ![]⟩ .f32 0x3F800000#32)) (Host.exp (Host.negf X)))
      = logistic X := by
  funext i
  show FloatOps.hostDivf (Ideal.ofBits .f32 0x3F800000#32)
      (FloatOps.addf (Ideal.ofBits .f32 0x3F800000#32) (FloatOps.hostUnary .exp (FloatOps.hostNegf (X i)))) = FloatOps.logistic (X i)
  rw [Ideal.ofBits_one_f32]
  rfl

end Cert.Spec

end
-- ==== Proof.ProjRegion.lean ====
/-
  The first kernel region: what its output array holds when the region ends.

  The grid has 10 points; point t reads rows 10000·t … 10000·t + 9999 of the features (all 256 columns) and the whole
  weight matrix, and writes rows 10000·t … 10000·t + 9999 of the output (all 64 columns): the product of its feature
  tile with the weights. Row 10000·t + p of the tile product is row 10000·t + p of the whole product, so every
  written block is the block of ONE array, the projection X · W, and the ten blocks cover the output.
-/
import proofs.«142743_j59081570123779_1_alg».proof.Proof.Gen.KernelIdeal.Frame
import proofs.«142743_j59081570123779_1_alg».proof.Proof.Spec
import Idealize.ShloMosaic.Lib.Pipeline.Value

set_option maxRecDepth 16384

noncomputable section

open scoped BigOperators

namespace Cert.KernelIdeal.ProjRegion

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

theorem zeros : (![0, 0] : Fin 2 → Nat) = fun _ => 0 := funext fun a => by fin_cases a <;> rfl

/-- The body's stored value at (p, q): the sum over k of (feature tile)[p,k] · (weights)[k,q]. -/
theorem tile_payload (x0 : Vec Ideal S10000x256 .f32) (x1 : Vec Ideal S256x64 .f32) (p : Fin 10000) (q : Fin 64) :
    k0_pay1 (F := Ideal) x0 x1 (ix2 p q) = ∑ k : Fin 256, x0 (ix2 p k) * x1 (ix2 k q) :=
  Cert.Spec.tile_apply x0 x1 bitsLt_bf16_f32 p q

/-- If the tile's row p is row r of the features and the tile's weights are the weights, the stored value at (p, q)
    is entry (r, q) of the whole projection. -/
theorem tile_at (a0 : FVec Ideal S100000x256 .f32) (a2 : FVec Ideal S256x64 .f32)
    (x0 : Vec Ideal S10000x256 .f32) (x1 : Vec Ideal S256x64 .f32) (p : Fin 10000) (q : Fin 64) (r : Fin 100000)
    (h0 : ∀ k : Fin 256, x0 (ix2 p k) = a0 (ix2 r k)) (h1 : ∀ k : Fin 256, x1 (ix2 k q) = a2 (ix2 k q)) :
    k0_pay1 (F := Ideal) x0 x1 (ix2 p q) = Cert.Spec.proj a0 a2 (ix2 r q) := by
  rw [Cert.Spec.proj_apply]
  exact (tile_payload x0 x1 p q).trans (Finset.sum_congr rfl fun k _ => by rw [h0 k, h1 k])

/-- The index maps over the grid: the features' and the output's block row is the point's number, every block
    column is 0, and the weights' block is always block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the projection of the arrays as the region finds them. -/
theorem flushed_eq (c : Dev nD) (t : Fin cfg0.N) :
    (dat0 V c).flushed 2 t
      = ((cfg0.win 2).blk t).view.read (Elt Ideal) (Cert.Spec.proj (V c main_arg0) (V c main_arg2)) := by
  show (cfg0.win 2).cut (grid0.coords t) ((dat0 V c).after 2 t) = _
  rw [after0_2]
  unfold out0_2
  rw [View.canon_unit_zero zeros]
  simp only [View.ld_unit_zero (S := S10000x256) zeros, View.ld_unit_zero (S := S256x64) zeros]
  obtain ⟨e0, e1, e2, e3, e4, e5⟩ := index_facts t
  have ht : t.val < 10 := Nat.lt_of_lt_of_eq t.isLt N_0
  funext j
  have hj0 : (j 0).val < 10000 := (j 0).isLt
  have hj1 : (j 1).val < 64 := (j 1).isLt
  show k0_pay1 (F := Ideal) (iblk0 V c 0 t) (iblk0 V c 1 t) j
    = Cert.Spec.proj (V c main_arg0) (V c main_arg2) (((cfg0.win 2).blk t).view.emb j)
  have hj : j = ix2 (⟨(j 0).val, hj0⟩ : Fin 10000) (⟨(j 1).val, hj1⟩ : Fin 64) := by
    funext a; match a with | ⟨0, _⟩ => rfl | ⟨1, _⟩ => rfl
  have he : ((cfg0.win 2).blk t).view.emb j
      = ix2 (⟨t.val * 10000 + (j 0).val, by omega⟩ : Fin 100000) (⟨(j 1).val, hj1⟩ : Fin 64) := by
    funext a; apply Fin.ext
    match a with
    | ⟨0, _⟩ => show win0_2.index t (0 : Fin 2) * 10000 + 1 * (j 0).val = t.val * 10000 + (j 0).val; omega
    | ⟨1, _⟩ => show win0_2.index t (1 : Fin 2) * 64 + 1 * (j 1).val = (j 1).val; omega
  rw [he]
  refine (congrArg (k0_pay1 (F := Ideal) (iblk0 V c 0 t) (iblk0 V c 1 t)) hj).trans ?_
  refine tile_at (V c main_arg0) (V c main_arg2) (iblk0 V c 0 t) (iblk0 V c 1 t) _ _ _ (fun k => ?_) (fun k => ?_)
  · show V c main_arg0 (((cfg0.win 0).blk t).view.emb (ix2 (⟨(j 0).val, hj0⟩ : Fin 10000) k)) = _
    refine congrArg (V c main_arg0) ?_
    funext a; apply Fin.ext
    match a with
    | ⟨0, _⟩ => show win0_0.index t (0 : Fin 2) * 10000 + 1 * (j 0).val = t.val * 10000 + (j 0).val; omega
    | ⟨1, _⟩ => show win0_0.index t (1 : Fin 2) * 256 + 1 * k.val = k.val; omega
  · show V c main_arg2 (((cfg0.win 1).blk t).view.emb (ix2 k (⟨(j 1).val, hj1⟩ : Fin 64))) = _
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 64 + 1 * (j 1).val = (j 1).val; omega

/-- An index of the output array is in point t's block iff each coordinate is in the block's range on its axis. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v0).slice (win0_2.rect t)).set ↔ _
  rw [View.set_slice_whole, Rect.mem_set_unit]
  exact Iff.rfl

/-- Row r of the output is in the block of point r / 10000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hlt : (i 0).val / 10000 < cfg0.N := by rw [show cfg0.N = 10 from N_0]; omega
  refine ⟨⟨(i 0).val / 10000, hlt⟩, flush0_2 _, ?_⟩
  rw [mem_block]
  obtain ⟨-, -, -, -, e4, e5⟩ := index_facts ⟨(i 0).val / 10000, hlt⟩
  have e4' : win0_2.index ⟨(i 0).val / 10000, hlt⟩ (0 : Fin 2) = (i 0).val / 10000 := e4
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    omega
  | ⟨1, _⟩ =>
    show win0_2.index ⟨(i 0).val / 10000, hlt⟩ (1 : Fin 2) * 64 ≤ (i 1).val
      ∧ (i 1).val < win0_2.index ⟨(i 0).val / 10000, hlt⟩ (1 : Fin 2) * 64 + 64
    omega

/-- The region's output array ends holding the whole projection of the arrays as the region finds them. -/
theorem final (c : Dev nD) :
    (dat0 V c).arrAt 2 cfg0.N = Cert.Spec.proj (V c main_arg0) (V c main_arg2) :=
  (dat0 V c).arrAt_eq_of_cover 2 _ (fun t _ => flushed_eq V c t) covered

end Cert.KernelIdeal.ProjRegion

end
-- ==== Proof.SigmoidRegion.lean ====
/-
  The second kernel region: what its output array holds when the region ends.

  The grid has 10 points; point t reads rows 10000·t … 10000·t + 9999 of the aggregated array (all 64 columns) and
  writes the same rows of the output: the logistic function of each entry. So every written block is the block of ONE
  array, the logistic function of the aggregated array entry by entry, and the ten blocks cover the output.
-/
import proofs.«142743_j59081570123779_1_alg».proof.Proof.Gen.KernelIdeal.Frame
import Idealize.ShloMosaic.Lib.Pipeline.Value
import Idealize.ShloMosaic.PureOps.Ideal

set_option maxRecDepth 16384

noncomputable section

namespace Cert.KernelIdeal.SigmoidRegion

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

theorem zeros : (![0, 0] : Fin 2 → Nat) = fun _ => 0 := funext fun a => by fin_cases a <;> rfl

/-- The body's stored value is the logistic function of the loaded block, entry by entry (the cast between equal
    shapes is the identity). -/
theorem payload_eq (x0 : Vec Ideal S10000x64 .f32) :
    k1_pay1 (F := Ideal) x0 = logistic (F := Ideal) (s := S10000x64) (φ := .f32) x0 := by
  show logistic (F := Ideal) (s := S10000x64) (φ := .f32) (shapeCast S10000x64 x0 shapeCasts_S10000x64_S10000x64) = _
  rw [shapeCast_self]

/-- The index maps over the grid: the input's and the output's block row is the point's number, the block column 0. -/
theorem index_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point t writes back is block t of the logistic function of the input array as the region finds it. -/
theorem flushed_eq (c : Dev nD) (t : Fin cfg1.N) :
    (dat1 V c).flushed 1 t
      = ((cfg1.win 1).blk t).view.read (Elt Ideal) (logistic (F := Ideal) (s := S100000x64) (φ := .f32) (V c main_v14)) := by
  show (cfg1.win 1).cut (grid1.coords t) ((dat1 V c).after 1 t) = _
  rw [after1_1]
  unfold out1_1
  rw [View.canon_unit_zero zeros]
  simp only [View.ld_unit_zero (S := S10000x64) zeros]
  rw [payload_eq]
  obtain ⟨e0, e1, e2, e3⟩ := index_facts t
  funext j
  show FloatOps.logistic (F := Ideal) (φ := .f32) (V c main_v14 (((cfg1.win 0).blk t).view.emb j))
    = FloatOps.logistic (F := Ideal) (φ := .f32) (V c main_v14 (((cfg1.win 1).blk t).view.emb j))
  have h0 : ((cfg1.win 0).blk t).view.emb j = ((cfg1.win 1).blk t).view.emb j := by
    funext a; apply Fin.ext
    match a with
    | ⟨0, _⟩ => show win1_0.index t (0 : Fin 2) * 10000 + 1 * (j 0).val = win1_1.index t (0 : Fin 2) * 10000 + 1 * (j 0).val; omega
    | ⟨1, _⟩ => show win1_0.index t (1 : Fin 2) * 64 + 1 * (j 1).val = win1_1.index t (1 : Fin 2) * 64 + 1 * (j 1).val; omega
  rw [h0]

/-- An index of the output array is in point t's block iff each coordinate is in the block's range on its axis. -/
theorem mem_block (t : Fin cfg1.N) (i : S100000x64.Idx) :
    i ∈ ((cfg1.win 1).blk t).view.set ↔ ∀ a : Fin 2, win1_1.index t a * S10000x64.size a ≤ (i a).val
      ∧ (i a).val < win1_1.index t a * S10000x64.size a + S10000x64.size a := by
  show i ∈ ((View.whole main_v15).slice (win1_1.rect t)).set ↔ _
  rw [View.set_slice_whole, Rect.mem_set_unit]
  exact Iff.rfl

/-- Row r of the output is in the block of point r / 10000. -/
theorem covered (i : S100000x64.Idx) :
    ∃ t : Fin cfg1.N, (cfg1.win 1).flush t = true ∧ i ∈ ((cfg1.win 1).blk t).view.set := by
  have hi0 : (i 0).val < 100000 := (i 0).isLt
  have hi1 : (i 1).val < 64 := (i 1).isLt
  have hlt : (i 0).val / 10000 < cfg1.N := by rw [show cfg1.N = 10 from N_1]; omega
  refine ⟨⟨(i 0).val / 10000, hlt⟩, flush1_1 _, ?_⟩
  rw [mem_block]
  obtain ⟨-, -, e2, e3⟩ := index_facts ⟨(i 0).val / 10000, hlt⟩
  have e2' : win1_1.index ⟨(i 0).val / 10000, hlt⟩ (0 : Fin 2) = (i 0).val / 10000 := e2
  intro a
  match a with
  | ⟨0, _⟩ =>
    show win1_1.index ⟨(i 0).val / 10000, hlt⟩ (0 : Fin 2) * 10000 ≤ (i 0).val
      ∧ (i 0).val < win1_1.index ⟨(i 0).val / 10000, hlt⟩ (0 : Fin 2) * 10000 + 10000
    omega
  | ⟨1, _⟩ =>
    show win1_1.index ⟨(i 0).val / 10000, hlt⟩ (1 : Fin 2) * 64 ≤ (i 1).val
      ∧ (i 1).val < win1_1.index ⟨(i 0).val / 10000, hlt⟩ (1 : Fin 2) * 64 + 64
    omega

/-- The region's output array ends holding the logistic function of the input array as the region finds it. -/
theorem final (c : Dev nD) :
    (dat1 V c).arrAt 1 cfg1.N = logistic (F := Ideal) (s := S100000x64) (φ := .f32) (V c main_v14) :=
  (dat1 V c).arrAt_eq_of_cover 1 _ (fun t _ => flushed_eq V c t) covered

end Cert.KernelIdeal.SigmoidRegion

end
-- ==== Proof.Aggregate.lean ====
/-
  The neighbourhood sum both programs apply to the projected rows, as one function.

  The edge list e is [2, 1600000]: row 0 holds each edge's target node, row 1 its source node. A negative source
  number has the node count 100000 added once (the wrap-around of array indexing), the projected row of each edge's
  source node is gathered, and the gathered rows are added, edge by edge, into a zero [100000, 64] array at each
  edge's target row. Neither program's proof opens this function: both apply it to the same projection.
-/
import proofs.«142743_j59081570123779_1_alg».proof.KernelIdeal
import proofs.«142743_j59081570123779_1_alg».proof.Proof.Gen.KernelIdeal
import Idealize.ShloMosaic.PureOps.Ideal

noncomputable section

namespace Cert.KernelIdeal.Whole

open Cert.KernelIdeal Cert.KernelIdeal.Gen Idealize.ShloMosaic

/-- The sum over incoming edges of the rows of `x`, by the edge list `e`. -/
def aggregate (x : (⟨S100000x64, .f32⟩ : BufTy).Contents (Elt Ideal)) (e : (⟨S2x1600000, .i32⟩ : BufTy).Contents (Elt Ideal)) :
    (⟨S100000x64, .f32⟩ : BufTy).Contents (Elt Ideal) :=
  Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (shapeCast _ (extractStridedSlice S1x1600000 ![0, 0] e slices_S2x1600000_S1x1600000_0_0) shapeCasts_S1x1600000_S1600000)) (Host.gather gather_S100000x64_S1600000x1_S1600000x64_1_0_n_n_0_1_164 x (broadcastInDim S1600000x1 ![0] bcast_S1600000_S1600000x1_0 (select (cmpi .slt (shapeCast _ (extractStridedSlice S1x1600000 ![1, 0] e slices_S2x1600000_S1x1600000_1_0) shapeCasts_S1x1600000_S1600000) (broadcastInDim S1600000 ![] bcast_S_S1600000 (constantI S_ 32 0#32))) (addi (shapeCast _ (extractStridedSlice S1x1600000 ![1, 0] e slices_S2x1600000_S1x1600000_1_0) shapeCasts_S1x1600000_S1600000) (broadcastInDim S1600000 ![] bcast_S_S1600000 (constantI S_ 32 100000#32))) (shapeCast _ (extractStridedSlice S1x1600000 ![1, 0] e slices_S2x1600000_S1x1600000_1_0) shapeCasts_S1x1600000_S1600000))))

end Cert.KernelIdeal.Whole

end
-- ==== Proof.KernelValue.lean ====
/-
  What the kernel's program computes, read off its run.

  The run ends with the result array at the second region's write-backs. The second region writes the logistic
  function of the array it is entered with; that array is the neighbourhood sum, computed by the host operations
  between the regions, of the first region's output and the edge list; and the first region's output is the
  projection X · W of the launch contents. So the result is sigmoid (A · (X · W)).
-/
import proofs.«142743_j59081570123779_1_alg».proof.Proof.KernelRun
import proofs.«142743_j59081570123779_1_alg».proof.Proof.ProjRegion
import proofs.«142743_j59081570123779_1_alg».proof.Proof.SigmoidRegion
import proofs.«142743_j59081570123779_1_alg».proof.Proof.Aggregate
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The first region leaves the projection of the launch contents in its output array. -/
theorem projected (c : Dev nD) :
    W1 m ρ c (Proc.devRef .tc main_v0)
      = Cert.Spec.proj (m ((c.tc : Thread nD τ).loc main_arg0)) (m ((c.tc : Thread nD τ).loc main_arg2)) :=
  (W1_arr m ρ c 2).trans (Cert.KernelIdeal.ProjRegion.final (V0 m ρ) c)

/-- The second region is entered with the neighbourhood sum of the first region's output by the launch edge list
    (the first region does not write the edge list). -/
theorem aggregated (c : Dev nD) :
    V2 m ρ c main_v14 = aggregate (W1 m ρ c (Proc.devRef .tc main_v0)) (m ((c.tc : Thread nD τ).loc main_arg1)) := by
  show StableHlo.after hostOps1 (W1 m ρ c) (Proc.devRef .tc main_v14) = _
  after_results
  rw [W1_of_ne m ρ c main_arg1 (by decide)]
  rfl

/-- The result array at the last boundary: sigmoid of the neighbourhood sum of the projection. -/
theorem result (c : Dev nD) :
    W3 m ρ c (Proc.devRef .tc main_v15)
      = logistic (F := Ideal) (s := S100000x64) (φ := .f32)
          (aggregate (Cert.Spec.proj (m ((c.tc : Thread nD τ).loc main_arg0)) (m ((c.tc : Thread nD τ).loc main_arg2)))
            (m ((c.tc : Thread nD τ).loc main_arg1))) :=
  (W3_arr m ρ c 1).trans ((Cert.KernelIdeal.SigmoidRegion.final (V2 m ρ) c).trans
    (congrArg (logistic (F := Ideal) (s := S100000x64) (φ := .f32))
      ((aggregated m ρ c).trans (congrArg (aggregate · (m ((c.tc : Thread nD τ).loc main_arg1))) (projected m ρ c)))))

/-- The kernel's run with its result named as that function of the launch contents. -/
theorem run : θ_run defs (onTc (τ := τ) (main (F := Ideal))) ⟨m, fun _ => 0, ρ⟩ (fun r => ∀ c : Dev nD,
      r.2.mem ((c.tc : Thread nD τ).loc main_v15)
        = logistic (F := Ideal) (s := S100000x64) (φ := .f32)
            (aggregate (Cert.Spec.proj (m ((c.tc : Thread nD τ).loc main_arg0)) (m ((c.tc : Thread nD τ).loc main_arg2)))
              (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result m ρ c), (h c).2⟩)
    (Cert.KernelIdeal.Named.run_named (F := Ideal) m ρ)

end Cert.KernelIdeal.Whole

end
-- ==== Proof.RefValue.lean ====
/-
  What the reference computes, as the same function.

  The reference's run ends with its result at 1 / (1 + exp (-s)) entry by entry, s the neighbourhood sum of the
  projection X · W by the edge list. Its projection and its neighbourhood sum are the kernel program's own (the same
  operations over the same shapes), and 1 / (1 + exp (-s)) is the logistic function on the extended reals.
-/
import proofs.«142743_j59081570123779_1_alg».proof.Proof.Gen.ReferenceIdeal.Run
import proofs.«142743_j59081570123779_1_alg».proof.Proof.Aggregate
import proofs.«142743_j59081570123779_1_alg».proof.Proof.Spec

noncomputable section

namespace Cert.ReferenceIdeal.RefValue

open Cert.ReferenceIdeal Cert.ReferenceIdeal.Gen Idealize.ShloMosaic

/-- The reference's neighbourhood sum of its projection is the kernel program's neighbourhood sum of the projection. -/
theorem sum_eq (a0 : FVec Ideal S100000x256 .f32) (a1 : IVec S2x1600000 32) (a2 : FVec Ideal S256x64 .f32) :
    Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (shapeCast _ (extractStridedSlice S1x1600000 ![0, 0] a1 slices_S2x1600000_S1x1600000_0_0) shapeCasts_S1x1600000_S1600000)) (Host.gather gather_S100000x64_S1600000x1_S1600000x64_1_0_n_n_0_1_164 (Host.dotGeneral (F := Ideal) (φ₁ := .f32) (φ₂ := .f32) dot_S100000x256_S256x64_S100000x64_1_0_0_1_n_n none a0 a2) (broadcastInDim S1600000x1 ![0] bcast_S1600000_S1600000x1_0 (select (cmpi .slt (shapeCast _ (extractStridedSlice S1x1600000 ![1, 0] a1 slices_S2x1600000_S1x1600000_1_0) shapeCasts_S1x1600000_S1600000) (broadcastInDim S1600000 ![] bcast_S_S1600000 (constantI S_ 32 0#32))) (addi (shapeCast _ (extractStridedSlice S1x1600000 ![1, 0] a1 slices_S2x1600000_S1x1600000_1_0) shapeCasts_S1x1600000_S1600000) (broadcastInDim S1600000 ![] bcast_S_S1600000 (constantI S_ 32 100000#32))) (shapeCast _ (extractStridedSlice S1x1600000 ![1, 0] a1 slices_S2x1600000_S1x1600000_1_0) shapeCasts_S1x1600000_S1600000))))
      = Cert.KernelIdeal.Whole.aggregate (Cert.Spec.proj a0 a2) a1 := rfl

/-- The reference's result term is sigmoid of the neighbourhood sum of the projection. -/
theorem result_eq (a0 : FVec Ideal S100000x256 .f32) (a1 : IVec S2x1600000 32) (a2 : FVec Ideal S256x64 .f32) :
    Host.divf (broadcastInDim S100000x64 ![] bcast_S_S100000x64 (constant (F := Ideal) S_ .f32 0x3F800000#32)) (addf (broadcastInDim S100000x64 ![] bcast_S_S100000x64 (constant (F := Ideal) S_ .f32 0x3F800000#32)) (Host.exp (Host.negf (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (shapeCast _ (extractStridedSlice S1x1600000 ![0, 0] a1 slices_S2x1600000_S1x1600000_0_0) shapeCasts_S1x1600000_S1600000)) (Host.gather gather_S100000x64_S1600000x1_S1600000x64_1_0_n_n_0_1_164 (Host.dotGeneral (F := Ideal) (φ₁ := .f32) (φ₂ := .f32) dot_S100000x256_S256x64_S100000x64_1_0_0_1_n_n none a0 a2) (broadcastInDim S1600000x1 ![0] bcast_S1600000_S1600000x1_0 (select (cmpi .slt (shapeCast _ (extractStridedSlice S1x1600000 ![1, 0] a1 slices_S2x1600000_S1x1600000_1_0) shapeCasts_S1x1600000_S1600000) (broadcastInDim S1600000 ![] bcast_S_S1600000 (constantI S_ 32 0#32))) (addi (shapeCast _ (extractStridedSlice S1x1600000 ![1, 0] a1 slices_S2x1600000_S1x1600000_1_0) shapeCasts_S1x1600000_S1600000) (broadcastInDim S1600000 ![] bcast_S_S1600000 (constantI S_ 32 100000#32))) (shapeCast _ (extractStridedSlice S1x1600000 ![1, 0] a1 slices_S2x1600000_S1x1600000_1_0) shapeCasts_S1x1600000_S1600000))))))))
      = logistic (F := Ideal) (s := Cert.KernelIdeal.S100000x64) (φ := .f32) (Cert.KernelIdeal.Whole.aggregate (Cert.Spec.proj a0 a2) a1) :=
  (Cert.Spec.sigmoid_eq _ bcast_S_S100000x64).trans (congrArg (logistic (F := Ideal) (s := Cert.KernelIdeal.S100000x64) (φ := .f32)) (sum_eq a0 a1 a2))

end Cert.ReferenceIdeal.RefValue

end
-- ==== Proof.lean ====
/-
  Kernel and reference both compute sigmoid (A · (X · W)) for node features X [100000, 256], weights W [256, 64] and
  an adjacency A given as a list of 1600000 edges: project every node's features, sum the projected rows over each
  node's incoming edges, apply the logistic function entry by entry.

  The kernel's program runs the projection as a matrix product tiled over 10 blocks of 10000 rows, with both operands
  narrowed to bf16 first, and the logistic function as a second tiled pass; between the two it gathers and
  scatter-adds on the host exactly as the reference does. On the extended reals narrowing is the identity and a tile
  of the product is the tile of the whole product (Proof/ProjRegion.lean), the second pass writes the logistic function
  of the whole aggregated array (Proof/SigmoidRegion.lean), and the logistic function is 1 / (1 + exp (-x)), which is
  how the reference spells it (Proof/Spec.lean). The neighbourhood sum is the same function in both programs
  (Proof/Aggregate.lean) and is never opened. No finiteness of the inputs is needed: the two results are one term.

  The frames of the two kernel programs are the generated ones; the reference's is its run with the result dropped.
  There is nothing to preserve between the kernel and its idealization: the ideal pass rewrote no operation.
-/
import proofs.«142743_j59081570123779_1_alg».proof.Defs
import proofs.«142743_j59081570123779_1_alg».proof.Proof.Gen.Kernel
import proofs.«142743_j59081570123779_1_alg».proof.Proof.Gen.Kernel.Skeleton
import proofs.«142743_j59081570123779_1_alg».proof.Proof.Gen.Kernel.Launch
import proofs.«142743_j59081570123779_1_alg».proof.Proof.Gen.Kernel.Points
import proofs.«142743_j59081570123779_1_alg».proof.Proof.Gen.Kernel.Frame
import proofs.«142743_j59081570123779_1_alg».proof.Proof.Gen.KernelIdeal
import proofs.«142743_j59081570123779_1_alg».proof.Proof.Gen.KernelIdeal.Skeleton
import proofs.«142743_j59081570123779_1_alg».proof.Proof.Gen.KernelIdeal.Launch
import proofs.«142743_j59081570123779_1_alg».proof.Proof.Gen.KernelIdeal.Points
import proofs.«142743_j59081570123779_1_alg».proof.Proof.Gen.KernelIdeal.Frame
import proofs.«142743_j59081570123779_1_alg».proof.Proof.Gen.ReferenceIdeal
import proofs.«142743_j59081570123779_1_alg».proof.Proof.Gen.ReferenceIdeal.Run
import proofs.«142743_j59081570123779_1_alg».proof.Proof.Gen.Pre_finite_inputs
import proofs.«142743_j59081570123779_1_alg».proof.Proof.KernelValue
import proofs.«142743_j59081570123779_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From launch memories that agree on the three arguments, the kernel's result array and the reference's both end at
    sigmoid of the neighbourhood sum of the projection of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
